-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x64x32x32 : Shape := ⟨5, ![32, 16, 64, 32, 32]⟩
abbrev S32x32 : Shape := ⟨2, ![32, 32]⟩
abbrev S32 : Shape := ⟨1, ![32]⟩
abbrev S_ : Shape := ⟨0, ![]⟩

class Facts : Prop where
  bcast_S_S32x16x64x32x32 : S_.BroadcastsInDim S32x16x64x32x32 (![] : Fin 0 → Fin S32x16x64x32x32.rank)
  reducesTo_S32x16x64x32x32_S_d0_1_2_3_4 : S32x16x64x32x32.ReducesTo [0, 1, 2, 3, 4] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S32x16x64x32x32 .f32) (main_arg1 : FVec F S32x32 .f32) (main_arg2 : FVec F S32 .f32) : IVec S_ 1 :=
  let main_v0 : FVec F S32x16x64x32x32 .f32 := Host.absf main_arg0
  let main_cst : FVec F S_ .f32 := constant S_ .f32 0x7F800000#32
  let main_v1 : FVec F S32x16x64x32x32 .f32 := broadcastInDim S32x16x64x32x32 ![] bcast_S_S32x16x64x32x32 main_cst
  let main_v2 : IVec S32x16x64x32x32 1 := cmpf .olt main_v0 main_v1
  let main_c : IVec S_ 1 := constantI S_ 1 1#1
  let main_v3 : IVec S_ 1 := (fun x v => Host.reduce IntOp.andi x v reducesTo_S32x16x64x32x32_S_d0_1_2_3_4 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S32x16x64x32x32 : Shape := ⟨5, ![32, 16, 64, 32, 32]⟩
abbrev S32x32 : Shape := ⟨2, ![32, 32]⟩
abbrev S32 : Shape := ⟨1, ![32]⟩
abbrev S_ : Shape := ⟨0, ![]⟩
abbrev S32x1 : Shape := ⟨2, ![32, 1]⟩
abbrev S32x1048576 : Shape := ⟨2, ![32, 1048576]⟩
abbrev S32x32768 : Shape := ⟨2, ![32, 32768]⟩

abbrev nBuf : Space → Nat
  | .hbm => 25
  | .vmem => 6
  | .smem => 0
  | _ => 0

abbrev bufTy : (tb : Table) → Fin (tcTables nBuf tb) → BufTy
  | .hbm, ⟨0, _⟩ => ⟨S32x16x64x32x32, .f32⟩
  | .hbm, ⟨1, _⟩ => ⟨S32x32, .f32⟩
  | .hbm, ⟨2, _⟩ => ⟨S32, .f32⟩
  | .hbm, ⟨3, _⟩ => ⟨S_, .f32⟩
  | .hbm, ⟨4, _⟩ => ⟨S32x32, .f32⟩
  | .hbm, ⟨5, _⟩ => ⟨S32x32, .i32⟩
  | .hbm, ⟨6, _⟩ => ⟨S_, .i32⟩
  | .hbm, ⟨7, _⟩ => ⟨S32x32, .i32⟩
  | .hbm, ⟨8, _⟩ => ⟨S32x32, .i32⟩
  | .hbm, ⟨9, _⟩ => ⟨S32x32, .i32⟩
  | .hbm, ⟨10, _⟩ => ⟨S32x32, .i1⟩
  | .hbm, ⟨11, _⟩ => ⟨S_, .f32⟩
  | .hbm, ⟨12, _⟩ => ⟨S32x32, .f32⟩
  | .hbm, ⟨13, _⟩ => ⟨S32x32, .f32⟩
  | .hbm, ⟨14, _⟩ => ⟨S_, .f32⟩
  | .hbm, ⟨15, _⟩ => ⟨S32x32, .f32⟩
  | .hbm, ⟨16, _⟩ => ⟨S32x32, .f32⟩
  | .hbm, ⟨17, _⟩ => ⟨S_, .f32⟩
  | .hbm, ⟨18, _⟩ => ⟨S32x32, .f32⟩
  | .hbm, ⟨19, _⟩ => ⟨S32x32, .f32⟩
  | .hbm, ⟨20, _⟩ => ⟨S32x32, .f32⟩
  | .hbm, ⟨21, _⟩ => ⟨S32x1, .f32⟩
  | .hbm, ⟨22, _⟩ => ⟨S32x1048576, .f32⟩
  | .hbm, ⟨23, _⟩ => ⟨S32x1048576, .f32⟩
  | .hbm, ⟨24, _⟩ => ⟨S32x16x64x32x32, .f32⟩
  | .local _ .vmem, ⟨0, _⟩ => ⟨S32x32, .f32⟩
  | .local _ .vmem, ⟨1, _⟩ => ⟨S32x1, .f32⟩
  | .local _ .vmem, ⟨2, _⟩ => ⟨S32x32768, .f32⟩
  | .local _ .vmem, ⟨3, _⟩ => ⟨S32x32768, .f32⟩
  | .local _ .vmem, ⟨4, _⟩ => ⟨S32x32768, .f32⟩
  | .local _ .vmem, ⟨5, _⟩ => ⟨S32x32768, .f32⟩
  | _, _ => ⟨S32x16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_cst : Ref sig .tc := ⟨.hbm, 11, rfl⟩
abbrev main_call0_v5 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S32x32 : S_.BroadcastsInDim S32x32 (![] : Fin 0 → Fin S32x32.rank)
  shapeCasts_S32_S32x1 : S32.ShapeCasts S32x1
  shapeCasts_S32x16x64x32x32_S32x1048576 : S32x16x64x32x32.ShapeCasts S32x1048576
  inb_S32x32_S32x32_0_0 : ∀ a, (![0, 0] : Fin 2 → Nat) a + S32x32.size a ≤ S32x32.size a
  h_S32x32 : 0 < S32x32.numel
  shapeCasts_S32x32_S32x32 : S32x32.ShapeCasts S32x32
  bitsLt_bf16_f32 : FTy.bits .bf16 < FTy.bits .f32
  inb_S32x32768_S32x32768_0_0 : ∀ a, (![0, 0] : Fin 2 → Nat) a + S32x32768.size a ≤ S32x32768.size a
  h_S32x32768 : 0 < S32x32768.numel
  shapeCasts_S32x32768_S32x32768 : S32x32768.ShapeCasts S32x32768
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x32768 : S32x1.Broadcasts S32x32768
  natLt_1_32 : 1 < 32
  shapeCasts_S32x1048576_S32x16x64x32x32 : S32x1048576.ShapeCasts S32x16x64x32x32
  dot_S32x32_S32x32768_S32x32768_1_0_0_1_n_n_wf : DotDims.WF S32x32 S32x32768 S32x32768 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x32.size a ≤ S32x32.size a
  hwx0_0 : ∀ i : grid0.Coords, EltTy.bits .f32 = 32 ∨ (Rect.block (s := S32x32) S32x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S32x1.size a
  hwx0_1 : ∀ i : grid0.Coords, EltTy.bits .f32 = 32 ∨ (Rect.block (s := S32x1) S32x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x32768.size a ≤ S32x1048576.size a
  hwx0_2 : ∀ i : grid0.Coords, EltTy.bits .f32 = 32 ∨ (Rect.block (s := S32x1048576) S32x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x32768.size a ≤ S32x1048576.size a
  hwx0_3 : ∀ i : grid0.Coords, EltTy.bits .f32 = 32 ∨ (Rect.block (s := S32x1048576) S32x32768.size (cc0_transform_3 i) (hinb0_3 i)).WholeWords (EltTy.packing .f32)

variable [Facts₀]

def dot_S32x32_S32x32768_S32x32768_1_0_0_1_n_n : DotDims S32x32 S32x32768 S32x32768 where
  lhsContracting := [1]
  rhsContracting := [0]
  lhsNonContracting := [0]
  rhsNonContracting := [1]
  lhsBatch := []
  rhsBatch := []
  wf := dot_S32x32_S32x32768_S32x32768_1_0_0_1_n_n_wf

abbrev win0_0 : Pipeline.Window sig grid0 :=
  Pipeline.Window.ofSpec (Memref.whole main_v6) S32x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S32x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S32x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S32x32768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x16x64x32x32 : Shape := ⟨5, ![32, 16, 64, 32, 32]⟩
abbrev S32x32 : Shape := ⟨2, ![32, 32]⟩
abbrev S32 : Shape := ⟨1, ![32]⟩
abbrev S_ : Shape := ⟨0, ![]⟩
abbrev S32x1048576 : Shape := ⟨2, ![32, 1048576]⟩
abbrev S32x1 : Shape := ⟨2, ![32, 1]⟩

abbrev nBuf : Space → Nat
  | .hbm => 31
  | .vmem => 0
  | .smem => 0
  | _ => 0

abbrev bufTy : (tb : Table) → Fin (tcTables nBuf tb) → BufTy
  | .hbm, ⟨0, _⟩ => ⟨S32x16x64x32x32, .f32⟩
  | .hbm, ⟨1, _⟩ => ⟨S32x32, .f32⟩
  | .hbm, ⟨2, _⟩ => ⟨S32, .f32⟩
  | .hbm, ⟨3, _⟩ => ⟨S_, .f32⟩
  | .hbm, ⟨4, _⟩ => ⟨S32x32, .f32⟩
  | .hbm, ⟨5, _⟩ => ⟨S32x32, .i32⟩
  | .hbm, ⟨6, _⟩ => ⟨S_, .i32⟩
  | .hbm, ⟨7, _⟩ => ⟨S32x32, .i32⟩
  | .hbm, ⟨8, _⟩ => ⟨S32x32, .i32⟩
  | .hbm, ⟨9, _⟩ => ⟨S32x32, .i32⟩
  | .hbm, ⟨10, _⟩ => ⟨S32x32, .i1⟩
  | .hbm, ⟨11, _⟩ => ⟨S_, .f32⟩
  | .hbm, ⟨12, _⟩ => ⟨S32x32, .f32⟩
  | .hbm, ⟨13, _⟩ => ⟨S32x32, .f32⟩
  | .hbm, ⟨14, _⟩ => ⟨S_, .f32⟩
  | .hbm, ⟨15, _⟩ => ⟨S32x32, .f32⟩
  | .hbm, ⟨16, _⟩ => ⟨S32x32, .f32⟩
  | .hbm, ⟨17, _⟩ => ⟨S_, .f32⟩
  | .hbm, ⟨18, _⟩ => ⟨S32x32, .f32⟩
  | .hbm, ⟨19, _⟩ => ⟨S32x32, .f32⟩
  | .hbm, ⟨20, _⟩ => ⟨S32x32, .f32⟩
  | .hbm, ⟨21, _⟩ => ⟨S32x1048576, .f32⟩
  | .hbm, ⟨22, _⟩ => ⟨S32x1048576, .f32⟩
  | .hbm, ⟨23, _⟩ => ⟨S32x1, .f32⟩
  | .hbm, ⟨24, _⟩ => ⟨S32x1048576, .f32⟩
  | .hbm, ⟨25, _⟩ => ⟨S32x1048576, .f32⟩
  | .hbm, ⟨26, _⟩ => ⟨S_, .f32⟩
  | .hbm, ⟨27, _⟩ => ⟨S32x1048576, .f32⟩
  | .hbm, ⟨28, _⟩ => ⟨S32x1048576, .i1⟩
  | .hbm, ⟨29, _⟩ => ⟨S32x1048576, .f32⟩
  | .hbm, ⟨30, _⟩ => ⟨S32x16x64x32x32, .f32⟩
  | _, _ => ⟨S32x16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_cst : Ref sig .tc := ⟨.hbm, 11, rfl⟩
abbrev main_call0_v5 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩

abbrev nD : Nat := 1
abbrev τ : Topo := Topo.v7x

variable {F : FTy → Type} [FloatOps F]

class Facts₀ : Prop where
  bcast_S_S32x32 : S_.BroadcastsInDim S32x32 (![] : Fin 0 → Fin S32x32.rank)
  shapeCasts_S32x16x64x32x32_S32x1048576 : S32x16x64x32x32.ShapeCasts S32x1048576
  bcast_S32_S32x1_0 : S32.BroadcastsInDim S32x1 (![0] : Fin 1 → Fin S32x1.rank)
  bcast_S32x1_S32x1048576_0_1 : S32x1.BroadcastsInDim S32x1048576 (![0, 1] : Fin 2 → Fin S32x1048576.rank)
  bcast_S_S32x1048576 : S_.BroadcastsInDim S32x1048576 (![] : Fin 0 → Fin S32x1048576.rank)
  shapeCasts_S32x1048576_S32x16x64x32x32 : S32x1048576.ShapeCasts S32x16x64x32x32
  dot_S32x32_S32x1048576_S32x1048576_1_0_0_1_n_n_wf : DotDims.WF S32x32 S32x1048576 S32x1048576 [1] [0] [0] [1] [] []

variable [Facts₀]

def dot_S32x32_S32x1048576_S32x1048576_1_0_0_1_n_n : DotDims S32x32 S32x1048576 S32x1048576 where
  lhsContracting := [1]
  rhsContracting := [0]
  lhsNonContracting := [0]
  rhsNonContracting := [1]
  lhsBatch := []
  rhsBatch := []
  wf := dot_S32x32_S32x1048576_S32x1048576_1_0_0_1_n_n_wf

class Facts : Prop extends Facts₀ where

variable [Facts]
-- ==== Proof.Spec.lean ====
/-
  The function both programs compute, stated once over literal shapes.

  With T = 32 time steps and N = 1048576 flattened positions, the result at (t, n) is the Heaviside step
      H( Σ_k Wm(t, k) · X(k, n) + b(t) ),        H(h) = 1 if h ≥ 0 else 0,
  where X is the input read as a T × N matrix and Wm = w ⊙ (½ · tril + ½) is the weight matrix with its strictly
  upper triangle halved.  Everything is over the extended reals: the sum is a finite sum of products, and no law
  beyond reading each operation at an index is needed, so no finiteness of the inputs is used.
-/
import Idealize.ShloMosaic.PureOps.Ideal
import Idealize.ShloMosaic.PureOps.Ideal.Laws
import Idealize.ShloMosaic.Lib.ValueIdx

noncomputable section

namespace Cert.Spike

open Idealize.ShloMosaic Idealize.ShloMosaic.ValueIdx

/-- The shapes of the weight matrix, the bias vector, the flattened input and the five-axis input. -/
abbrev SW : Shape := ⟨2, ![32, 32]⟩
abbrev SB : Shape := ⟨1, ![32]⟩
abbrev SX : Shape := ⟨2, ![32, 1048576]⟩
abbrev S5 : Shape := ⟨5, ![32, 16, 64, 32, 32]⟩
abbrev S0 : Shape := ⟨0, ![]⟩

/-- The Heaviside step of a membrane value: one where it is at least zero, zero elsewhere, as a float. -/
def step (h : EReal) : EReal :=
  FloatOps.uitofp (F := Ideal) .f32 (FloatOps.cmpf (F := Ideal) (φ := .f32) .oge h (Ideal.ofBits .f32 0x00000000#32))

/-- Widening the one-bit outcome of a comparison to 32 bits and reading it signed gives the same float as reading
    the bit unsigned: both are 0 or 1. -/
theorem sitofp_widen (c : BitVec 1) :
    FloatOps.sitofp (F := Ideal) .f32 (c.setWidth 32) = FloatOps.uitofp (F := Ideal) .f32 c := by
  have h : (c.setWidth 32).toInt = (c.toNat : ℤ) := by revert c; decide
  show (((c.setWidth 32).toInt : ℝ) : EReal) = ((c.toNat : ℝ) : EReal)
  rw [h]; simp

/-- The spike train as a T × N matrix: the step of the masked weights' product with the input plus the bias. -/
def spikes (W : FVec Ideal SW .f32) (b : FVec Ideal SB .f32) (X : FVec Ideal SX .f32) : FVec Ideal SX .f32 :=
  fun i => step ((∑ k : Fin 32, W (ix2 (i 0) k) * X (ix2 k (i 1))) + b (ix1 (i 0)))

/-- The masked weights w ⊙ (½ · tril + ½), as the host operations build them: the lower-triangle indicator is a
    select of one and zero under the comparison row ≥ column of two iotas. -/
def maskedWeight (hb : S0.BroadcastsInDim SW (![] : Fin 0 → Fin SW.rank)) (w : FVec Ideal SW .f32) : FVec Ideal SW .f32 :=
  mulf w (addf (mulf (broadcastInDim SW ![] hb (constant S0 .f32 0x3F000000#32))
      (select (cmpi .sge (addi (iotaInDim SW 32 0) (broadcastInDim SW ![] hb (constantI S0 32 0#32))) (iotaInDim SW 32 1))
        (broadcastInDim SW ![] hb (constant S0 .f32 0x3F800000#32)) (broadcastInDim SW ![] hb (constant S0 .f32 0x00000000#32))))
    (broadcastInDim SW ![] hb (constant S0 .f32 0x3F000000#32)))

/-- The whole result: the spike train of the flattened input, laid back out on the input's five axes. -/
def result (hb : S0.BroadcastsInDim SW (![] : Fin 0 → Fin SW.rank)) (hx : S5.ShapeCasts SX) (h5 : SX.ShapeCasts S5)
    (x : FVec Ideal S5 .f32) (w : FVec Ideal SW .f32) (b : FVec Ideal SB .f32) : FVec Ideal S5 .f32 :=
  shapeCast S5 (spikes (maskedWeight hb w) b (shapeCast SX x hx)) h5

end Cert.Spike

end
-- ==== Proof.Tile.lean ====
/-
  What the kernel body stores, read at an index of its block.

  The body holds the whole 32 × 32 weight block w, the 32 × 1 bias column bb and a 32 × 32768 tile xb of the input.
  Casting to bf16 changes nothing over the extended reals, the matrix product into a zero accumulator at (p, q) is
  Σ_k w(p, k) · xb(k, q), the bias column is repeated along the lanes, and the comparison's bit, widened and read
  signed, is the step.  So the stored tile at (p, q) is step(Σ_k w(p, k) · xb(k, q) + bb(p, 0)).
-/
import proofs.«111200_j49134425866322_1_alg».proof.Proof.Gen.KernelIdeal.Skeleton
import proofs.«111200_j49134425866322_1_alg».proof.Proof.Spec
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen
open Idealize.ShloMosaic Idealize.ShloMosaic.ValueIdx Cert.Spike

/-! ## The matrix product's operand indices, axis by axis -/

theorem lhs_axis0 (i : S32x32768.Idx) (q : dot_S32x32_S32x32768_S32x32768_1_0_0_1_n_n.contr.Idx) :
    (dot_S32x32_S32x32768_S32x32768_1_0_0_1_n_n.lhsIdx i q 0).val = (i 0).val := by
  unfold DotDims.lhsIdx
  rw [dif_neg (show ¬(0 : Fin S32x32.rank) ∈ dot_S32x32_S32x32768_S32x32768_1_0_0_1_n_n.lhsBatch by decide), dif_pos (show (0 : Fin S32x32.rank) ∈ dot_S32x32_S32x32768_S32x32768_1_0_0_1_n_n.lhsNonContracting by decide)]
  rfl
theorem lhs_axis1 (i : S32x32768.Idx) (q : dot_S32x32_S32x32768_S32x32768_1_0_0_1_n_n.contr.Idx) :
    (dot_S32x32_S32x32768_S32x32768_1_0_0_1_n_n.lhsIdx i q 1).val = (q ⟨0, by decide⟩).val :=
  dot_S32x32_S32x32768_S32x32768_1_0_0_1_n_n.lhsIdx_val_of_single rfl i q
theorem rhs_axis0 (i : S32x32768.Idx) (q : dot_S32x32_S32x32768_S32x32768_1_0_0_1_n_n.contr.Idx) :
    (dot_S32x32_S32x32768_S32x32768_1_0_0_1_n_n.rhsIdx i q 0).val = (q ⟨0, by decide⟩).val :=
  dot_S32x32_S32x32768_S32x32768_1_0_0_1_n_n.rhsIdx_val_of_single rfl i q
theorem rhs_axis1 (i : S32x32768.Idx) (q : dot_S32x32_S32x32768_S32x32768_1_0_0_1_n_n.contr.Idx) :
    (dot_S32x32_S32x32768_S32x32768_1_0_0_1_n_n.rhsIdx i q 1).val = (i 1).val := by
  unfold DotDims.rhsIdx
  rw [dif_neg (show ¬(1 : Fin S32x32768.rank) ∈ dot_S32x32_S32x32768_S32x32768_1_0_0_1_n_n.rhsBatch by decide), dif_pos (show (1 : Fin S32x32768.rank) ∈ dot_S32x32_S32x32768_S32x32768_1_0_0_1_n_n.rhsNonContracting by decide)]
  rfl

/-- The product of a 32 × 32 matrix with a 32 × 32768 tile into a zero accumulator, at (p, q): the sum over the
    32 contracted entries. -/
theorem matmul_at (a : FVec Ideal S32x32 .bf16) (b : FVec Ideal S32x32768 .bf16) (p : Fin 32) (q : Fin 32768) :
    matmul dot_S32x32_S32x32768_S32x32768_1_0_0_1_n_n none a b (constant S32x32768 .f32 0x00000000#32) (ix2 p q)
      = ∑ k : Fin 32, a (ix2 p k) * b (ix2 k q) := by
  simp only [matmul]
  rw [Ideal.matmul_constant_zero_apply, ← Equiv.sum_comp (contrEquiv1 dot_S32x32_S32x32768_S32x32768_1_0_0_1_n_n 32 rfl rfl).symm]
  refine Finset.sum_congr rfl fun k _ => ?_
  have hk := contrEquiv1_symm_val dot_S32x32_S32x32768_S32x32768_1_0_0_1_n_n 32 rfl rfl k
  have el : dot_S32x32_S32x32768_S32x32768_1_0_0_1_n_n.lhsIdx (ix2 p q) ((contrEquiv1 dot_S32x32_S32x32768_S32x32768_1_0_0_1_n_n 32 rfl rfl).symm k) = ix2 p k := funext fun a => Fin.ext (by
    match a with
    | ⟨0, _⟩ => exact lhs_axis0 _ _
    | ⟨1, _⟩ => exact (lhs_axis1 _ _).trans hk)
  have er : dot_S32x32_S32x32768_S32x32768_1_0_0_1_n_n.rhsIdx (ix2 p q) ((contrEquiv1 dot_S32x32_S32x32768_S32x32768_1_0_0_1_n_n 32 rfl rfl).symm k) = ix2 k q := funext fun a => Fin.ext (by
    match a with
    | ⟨0, _⟩ => exact (rhs_axis0 _ _).trans hk
    | ⟨1, _⟩ => exact rhs_axis1 _ _)
  rw [el, er]

/-- The bias column repeated along the lanes reads, at (p, q), the column's entry p. -/
theorem bias_at (bb : FVec Ideal S32x1 .f32) (p : Fin 32) (q : Fin 32768) :
    broadcastTo S32x32768 bb broadcasts_S32x1_S32x32768 (ix2 p q) = bb (ix2 p 0) :=
  broadcastTo_apply bb broadcasts_S32x1_S32x32768 (ix2 p q) (ix2 p 0) (fun a => by
    match a with
    | ⟨0, _⟩ => show p.val = if (32 : Nat) = 1 then 0 else p.val; rw [if_neg (by decide)]
    | ⟨1, _⟩ => show 0 = if (1 : Nat) = 1 then 0 else q.val; rw [if_pos rfl])

/-- The stored tile at (p, q). -/
theorem payload_at (w : Vec Ideal S32x32 .f32) (xb : Vec Ideal S32x32768 .f32) (bb : Vec Ideal S32x1 .f32)
    (p : Fin 32) (q : Fin 32768) :
    k0_pay1 (F := Ideal) w xb bb (ix2 p q) = step ((∑ k : Fin 32, w (ix2 p k) * xb (ix2 k q)) + bb (ix2 p 0)) := by
  unfold k0_pay1
  simp only [shapeCast_self]
  show FloatOps.sitofp (F := Ideal) .f32 (BitVec.setWidth 32 (FloatOps.cmpf (F := Ideal) (φ := .f32) .oge
      (matmul dot_S32x32_S32x32768_S32x32768_1_0_0_1_n_n none (truncf .bf16 w bitsLt_bf16_f32) (truncf .bf16 xb bitsLt_bf16_f32)
          (constant S32x32768 .f32 0x00000000#32) (ix2 p q)
        + broadcastTo S32x32768 bb broadcasts_S32x1_S32x32768 (ix2 p q))
      (Ideal.ofBits .f32 0x00000000#32))) = _
  rw [sitofp_widen, matmul_at, bias_at]
  rfl

end Cert.KernelIdeal.Tile

end
-- ==== Proof.Region.lean ====
/-
  The kernel program's result array is the specification's function of its arguments.

  Grid point t holds the whole weight block, the whole bias column and columns 32768·t … 32768·t + 32767 of the
  flattened input, and writes back the same columns of the output.  Its stored tile at (p, q) is the step of
  Σ_k Wm(p, k) · X(k, 32768·t + q) + b(p): the spike matrix read through the point's block.  The 32 blocks tile the
  output's columns, so after the region the output matrix is the spike matrix; the one host operation after the
  region reshapes it onto five axes.  Before the region the host operations build the masked weights, reshape the
  bias to a column and flatten the input.
-/
import proofs.«111200_j49134425866322_1_alg».proof.Proof.Gen.KernelIdeal.Frame
import proofs.«111200_j49134425866322_1_alg».proof.Proof.Tile
import Idealize.ShloMosaic.Lib.Pipeline.Value
import Idealize.ShloMosaic.Lib.StableHlo.Run
import Idealize.ShloMosaic.Lib.Tactic

set_option maxRecDepth 16384

noncomputable section

namespace Cert.KernelIdeal.Region

open Cert.KernelIdeal Cert.KernelIdeal.Gen Cert.KernelIdeal.Tile
open Idealize.ShloMosaic Idealize.ShloMosaic.TcCoe Idealize.SL.Sem Idealize.ShloMosaic.ValueIdx Cert.Spike
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The three arrays the region stages, as it finds them: masked weights, bias column, flattened input. -/
abbrev warr (c : Dev nD) : FVec Ideal S32x32 .f32 := V m c main_v6
abbrev bcol (c : Dev nD) : FVec Ideal S32x1 .f32 := V m c main_v7
abbrev xarr (c : Dev nD) : FVec Ideal S32x1048576 .f32 := V m c main_v8

/-- The spike matrix of those arrays (the bias read off its column). -/
abbrev G (c : Dev nD) : FVec Ideal S32x1048576 .f32 :=
  spikes (warr m c) (fun r => bcol m c (ix2 (r 0) 0)) (xarr m c)

/-- Block indices over the grid: the weights and the bias stay at block (0, 0), the input and the output move
    along the columns with the point. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The weight block at any point is the weight array. -/
theorem wblk_at (c : Dev nD) (t : Fin cfg0.N) (p k : Fin 32) :
    (iblk m c 0 t : Vec Ideal S32x32 .f32) (ix2 p k) = warr m c (ix2 p k) := by
  obtain ⟨e0, e1, -⟩ := idx_facts t
  unfold iblk
  rw [View.read_apply]
  show V m c main_v6 _ = V m c main_v6 _
  congr 1
  funext a; apply Fin.ext
  match a with
  | ⟨0, _⟩ => show win0_0.index t (0 : Fin 2) * 32 + 1 * p.val = p.val; rw [e0]; omega
  | ⟨1, _⟩ => show win0_0.index t (1 : Fin 2) * 32 + 1 * k.val = k.val; rw [e1]; omega

/-- The bias block at any point is the bias column. -/
theorem bblk_at (c : Dev nD) (t : Fin cfg0.N) (p : Fin 32) :
    (iblk m c 1 t : Vec Ideal S32x1 .f32) (ix2 p 0) = bcol m c (ix2 p 0) := by
  obtain ⟨-, -, e2, e3, -⟩ := idx_facts t
  unfold iblk
  rw [View.read_apply]
  show V m c main_v7 _ = V m c main_v7 _
  congr 1
  funext a; apply Fin.ext
  match a with
  | ⟨0, _⟩ => show win0_1.index t (0 : Fin 2) * 32 + 1 * p.val = p.val; rw [e2]; omega
  | ⟨1, _⟩ => show win0_1.index t (1 : Fin 2) * 1 + 1 * 0 = 0; rw [e3]

/-- The input block at point t is columns 32768·t … of the flattened input. -/
theorem xblk_at (c : Dev nD) (t : Fin cfg0.N) (k : Fin 32) (q : Fin 32768) (i : S32x1048576.Idx)
    (h0 : (i 0).val = k.val) (h1 : (i 1).val = t.val * 32768 + q.val) :
    (iblk m c 2 t : Vec Ideal S32x32768 .f32) (ix2 k q) = xarr m c i := by
  obtain ⟨-, -, -, -, e4, e5, -⟩ := idx_facts t
  unfold iblk
  rw [View.read_apply]
  show V m c main_v8 _ = V m c main_v8 _
  congr 1
  funext a; apply Fin.ext
  match a with
  | ⟨0, _⟩ => show win0_2.index t (0 : Fin 2) * 32 + 1 * k.val = (i 0).val; rw [e4, h0]; omega
  | ⟨1, _⟩ => show win0_2.index t (1 : Fin 2) * 32768 + 1 * q.val = (i 1).val; rw [e5, h1]; omega

/-- A stored tile whose operands are the arrays read through the point's blocks is the spike matrix read through
    the output's block: over plain vectors, the point entering only through the column offset. -/
theorem tile_eq (W : FVec Ideal S32x32 .f32) (B : FVec Ideal S32x1 .f32) (X : FVec Ideal S32x1048576 .f32)
    (w : Vec Ideal S32x32 .f32) (bb : Vec Ideal S32x1 .f32) (xb : Vec Ideal S32x32768 .f32) (off : Nat)
    (hw : ∀ p k : Fin 32, w (ix2 p k) = W (ix2 p k)) (hb : ∀ p : Fin 32, bb (ix2 p 0) = B (ix2 p 0))
    (hx : ∀ (k : Fin 32) (q : Fin 32768) (i : S32x1048576.Idx), (i 0).val = k.val → (i 1).val = off + q.val → xb (ix2 k q) = X i)
    (j : S32x32768.Idx) (i : S32x1048576.Idx) (h0 : (i 0).val = (j 0).val) (h1 : (i 1).val = off + (j 1).val) :
    k0_pay1 (F := Ideal) w xb bb j = spikes W (fun r => B (ix2 (r 0) 0)) X i := by
  obtain ⟨p, q, rfl⟩ : ∃ (p : Fin 32) (q : Fin 32768), j = ix2 p q := ⟨j 0, j 1, eq_ix2 j⟩
  rw [payload_at]
  have hi0 : i 0 = p := Fin.ext h0
  unfold spikes
  show step _ = step ((∑ k : Fin 32, W (ix2 (i 0) k) * X (ix2 k (i 1))) + B (ix2 (i 0) 0))
  rw [hi0, hb p]
  congr 2
  exact Finset.sum_congr rfl fun k _ => by rw [hw p k, hx k q (ix2 k (i 1)) rfl h1]

/-- What point t writes back is its block of the spike matrix. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold out0_3
  rw [View.canon_unit_zero hz]
  simp only [View.ld_unit_zero (S := S32x32) hz, View.ld_unit_zero (S := S32x32768) hz, View.ld_unit_zero (S := S32x1) hz]
  obtain ⟨-, -, -, -, -, -, e6, e7⟩ := idx_facts t
  funext j
  refine tile_eq (warr m c) (bcol m c) (xarr m c) (iblk m c 0 t) (iblk m c 1 t) (iblk m c 2 t) (t.val * 32768)
    (fun p k => wblk_at m c t p k) (fun p => bblk_at m c t p) (fun k q i h0 h1 => xblk_at m c t k q i h0 h1)
    j (((cfg0.win 3).blk t).view.emb j) ?_ ?_
  · show win0_3.index t (0 : Fin 2) * 32 + 1 * (j 0).val = (j 0).val; rw [e6]; omega
  · show win0_3.index t (1 : Fin 2) * 32768 + 1 * (j 1).val = t.val * 32768 + (j 1).val; rw [e7]; omega

/-- An index of the output matrix is in point t's block iff each coordinate is in the block's range. -/
theorem mem_blk (t : Fin cfg0.N) (i : S32x1048576.Idx) :
    i ∈ ((cfg0.win 3).blk t).view.set ↔ ∀ a : Fin 2, win0_3.index t a * S32x32768.size a ≤ (i a).val ∧ (i a).val < win0_3.index t a * S32x32768.size a + S32x32768.size a := by
  show i ∈ ((View.whole main_v9).slice (win0_3.rect t)).set ↔ _
  rw [View.set_slice_whole, Rect.mem_set_unit]
  exact Iff.rfl

/-- Column n lies in the block of point n / 32768: the blocks cover the output. -/
theorem cover (i : S32x1048576.Idx) :
    ∃ t : Fin cfg0.N, (cfg0.win 3).flush t = true ∧ i ∈ ((cfg0.win 3).blk t).view.set := by
  have hi0 : (i 0).val < 32 := (i 0).isLt
  have hi1 : (i 1).val < 1048576 := (i 1).isLt
  have hN : cfg0.N = 32 := N_0
  obtain ⟨t, ht⟩ : ∃ t : Fin cfg0.N, t.val = (i 1).val / 32768 := ⟨⟨(i 1).val / 32768, by rw [hN]; omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 32 ≤ (i 0).val ∧ (i 0).val < win0_3.index t (0 : Fin 2) * 32 + 32; rw [e6]; omega
  | ⟨1, _⟩ => show win0_3.index t (1 : Fin 2) * 32768 ≤ (i 1).val ∧ (i 1).val < win0_3.index t (1 : Fin 2) * 32768 + 32768; rw [e7, ht]; omega

/-- After the region the output matrix is the spike matrix. -/
theorem final (c : Dev nD) : (dats m 0 c).arrAt 3 cfg0.N = G m c :=
  (dats m 0 c).arrAt_eq_of_cover 3 (G m c) (fun t _ => flushed_eq m c t) cover

/-! ## The host operations before the region -/

/-- The weights the region stages are the masked weights of the weight argument. -/
theorem warr_eq (c : Dev nD) :
    warr m c = maskedWeight bcast_S_S32x32 (m ((c : Thread nD τ).loc main_arg1)) := by
  show (V m c main_v6 : S32x32.Idx → EReal) = _
  dsimp only [V, V0]
  simp only [hostOps0, hostOps0_1, hostOps0_2, List.flatten_cons, List.flatten_nil, List.append_nil, List.cons_append, List.nil_append]
  after_results
  rfl

/-- The bias column is the bias argument reshaped. -/
theorem bcol_eq (c : Dev nD) :
    bcol m c = shapeCast S32x1 (m ((c : Thread nD τ).loc main_arg2)) shapeCasts_S32_S32x1 := by
  show (V m c main_v7 : S32x1.Idx → EReal) = _
  dsimp only [V, V0]
  simp only [hostOps0, hostOps0_1, hostOps0_2, List.flatten_cons, List.flatten_nil, List.append_nil, List.cons_append, List.nil_append]
  after_results
  rfl

/-- The staged input is the input argument flattened to 32 rows. -/
theorem xarr_eq (c : Dev nD) :
    xarr m c = shapeCast S32x1048576 (m ((c : Thread nD τ).loc main_arg0)) shapeCasts_S32x16x64x32x32_S32x1048576 := by
  show (V m c main_v8 : S32x1048576.Idx → EReal) = _
  dsimp only [V, V0]
  simp only [hostOps0, hostOps0_1, hostOps0_2, List.flatten_cons, List.flatten_nil, List.append_nil, List.cons_append, List.nil_append]
  after_results
  rfl

/-- The bias column's entry p is the bias vector's entry p. -/
theorem bcol_at (c : Dev nD) (r : SB.Idx) :
    bcol m c (ix2 (r 0) 0) = (m ((c : Thread nD τ).loc main_arg2) : S32.Idx → EReal) r := by
  rw [bcol_eq]
  exact shapeCast_apply _ shapeCasts_S32_S32x1 (ix2 (r 0) 0) r (by
    rw [Shape.rowMajor_val_one, Shape.rowMajor_val_two]; show (r 0).val = (r 0).val * 1 + 0; omega)

/-- So the region's spike matrix is the specification's, of the three arguments. -/
theorem G_eq (c : Dev nD) :
    G m c = spikes (maskedWeight bcast_S_S32x32 (m ((c : Thread nD τ).loc main_arg1))) (m ((c : Thread nD τ).loc main_arg2))
      (shapeCast SX (m ((c : Thread nD τ).loc main_arg0)) shapeCasts_S32x16x64x32x32_S32x1048576) := by
  show spikes (warr m c) (fun r => bcol m c (ix2 (r 0) 0)) (xarr m c) = _
  rw [warr_eq, xarr_eq, show (fun r : SB.Idx => bcol m c (ix2 (r 0) 0)) = m ((c : Thread nD τ).loc main_arg2) from funext fun r => bcol_at m c r]

/-! ## The host operation after the region, and the run -/

theorem tail_eq (c : Dev nD) :
    Pipeline.afterTail₀ cfgs (dats m) 0 (V0 m) [hostOps1] c main_v10
      = shapeCast S32x16x64x32x32 (G m c) shapeCasts_S32x1048576_S32x16x64x32x32 := by
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.devRef .tc main_v9) = G m c :=
    (Pipeline.withArrays_arr spec0 launch0.win.arr_inj c _ _ 3).trans (final m c)
  rw [e]
  rfl

/-- The kernel program's run, read: the result array at the specification's result of the arguments, the arguments
    unchanged. -/
theorem run : θ_run defs (onTc (τ := τ) (main (F := Ideal))) ⟨m, fun _ => 0, ρ⟩ fun r => ∀ c : Dev nD,
      r.2.mem ((c.tc : Thread nD τ).loc main_v10)
        = result bcast_S_S32x32 shapeCasts_S32x16x64x32x32_S32x1048576 shapeCasts_S32x1048576_S32x16x64x32x32
            (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v10 (Pipeline.mem_restRefs_of main_v10 (by decide) (by decide))).trans
        ((tail_eq m c).trans (by rw [G_eq]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Region

end
-- ==== Proof.RefValue.lean ====
/-
  The reference's result is the specification's function of its arguments.

  Read one operation at a time, the reference's matrix stage at (t, n) is the unsigned reading of the comparison
  (Σ_k Wm(t, k) · X(k, n)) + b(t) ≥ 0: the host's dot_general is that sum over the one contracted axis, the bias
  reaches (t, n) through two broadcasts that only repeat it along n, and the masked weights and the flattened input
  are the specification's own terms.  The last reshape lays the matrix back out on five axes.
-/
import proofs.«111200_j49134425866322_1_alg».proof.Proof.Gen.ReferenceIdeal.Read
import proofs.«111200_j49134425866322_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.Spike

/-- The reference's matrix of spikes, before the final reshape, is the specification's. -/
theorem stage_eq_spikes (x0 : FVec Ideal S5 .f32) (x1 : FVec Ideal SW .f32) (x2 : FVec Ideal SB .f32) :
    val_main_v14 (F := Ideal) x0 x1 x2
      = spikes (maskedWeight bcast_S_S32x32 x1) x2 (shapeCast SX x0 shapeCasts_S32x16x64x32x32_S32x1048576) := by
  funext i
  rw [val_main_v14_apply, val_main_v13_apply, val_main_v11_apply, val_main_v8_apply, val_main_v10_apply,
    val_main_v9_apply, val_main_v12_apply, val_main_cst_2_apply]
  have e1 : ∀ k : Fin 32, lidx_main_v8 i k = ix2 (i 0) k := fun k => funext fun a => Fin.ext (by
    match a with | ⟨0, _⟩ => rfl | ⟨1, _⟩ => rfl)
  have e2 : ∀ k : Fin 32, ridx_main_v8 i k = ix2 k (i 1) := fun k => funext fun a => Fin.ext (by
    match a with | ⟨0, _⟩ => rfl | ⟨1, _⟩ => rfl)
  have e3 : idx_main_v9 (idx_main_v10 i) = ix1 (i 0) := funext fun a => Fin.ext (by
    match a with | ⟨0, _⟩ => rfl)
  simp only [e1, e2, e3]
  rfl

/-- The reference's result, as its run states it, is the specification's result of the three arguments. -/
theorem result_eq (x0 : FVec Ideal S5 .f32) (x1 : FVec Ideal SW .f32) (x2 : FVec Ideal SB .f32) :
    val_main_v15 (F := Ideal) x0 x1 x2
      = result bcast_S_S32x32 shapeCasts_S32x16x64x32x32_S32x1048576 shapeCasts_S32x1048576_S32x16x64x32x32 x0 x1 x2 := by
  unfold val_main_v15 result
  rw [stage_eq_spikes]

end Cert.ReferenceIdeal.RefValue

end
-- ==== Proof.lean ====
/-
  The certificate of a spiking layer: time-decay masked linear map over T = 32 steps, then a Heaviside threshold.

  Both programs compute, at time step t and flattened position n,
      H( Σ_k Wm(t, k) · X(k, n) + b(t) ),   Wm = w ⊙ (½ · tril + ½),   H(h) = 1 if h ≥ 0 else 0,
  and lay the 32 × 1048576 matrix back out on the input's five axes.  The kernel program builds Wm, the bias
  column and the flattened input on the host, computes one 32 × 32768 column tile of the matrix per grid point
  (a bf16 matrix product, exact over the extended reals, into a zero accumulator; the comparison's bit widened
  and read signed) and reshapes; the reference does one whole dot_general, broadcasts the bias, compares and
  converts the bit.  Index by index the two are the same finite sum and the same step, so no property of the
  inputs is used.

  Spec: the function.  Tile: the kernel body's stored tile at an index.  Region: the tiles cover the output
  matrix, the host operations before and after the region, the kernel program's run.  RefValue: the reference's
  run read one operation at a time.  Here: the five claims.
-/
import proofs.«111200_j49134425866322_1_alg».proof.Defs
import proofs.«111200_j49134425866322_1_alg».proof.Proof.Gen.Kernel
import proofs.«111200_j49134425866322_1_alg».proof.Proof.Gen.Kernel.Skeleton
import proofs.«111200_j49134425866322_1_alg».proof.Proof.Gen.Kernel.Launch
import proofs.«111200_j49134425866322_1_alg».proof.Proof.Gen.Kernel.Points
import proofs.«111200_j49134425866322_1_alg».proof.Proof.Gen.Kernel.Frame
import proofs.«111200_j49134425866322_1_alg».proof.Proof.Gen.KernelIdeal
import proofs.«111200_j49134425866322_1_alg».proof.Proof.Gen.KernelIdeal.Skeleton
import proofs.«111200_j49134425866322_1_alg».proof.Proof.Gen.KernelIdeal.Launch
import proofs.«111200_j49134425866322_1_alg».proof.Proof.Gen.KernelIdeal.Points
import proofs.«111200_j49134425866322_1_alg».proof.Proof.Gen.KernelIdeal.Frame
import proofs.«111200_j49134425866322_1_alg».proof.Proof.Gen.ReferenceIdeal
import proofs.«111200_j49134425866322_1_alg».proof.Proof.Gen.Pre_finite_inputs
import proofs.«111200_j49134425866322_1_alg».proof.Proof.Gen.ReferenceIdeal.Run
import proofs.«111200_j49134425866322_1_alg».proof.Proof.Gen.ReferenceIdeal.Read
import proofs.«111200_j49134425866322_1_alg».proof.Proof.Region
import proofs.«111200_j49134425866322_1_alg».proof.Proof.RefValue
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals both programs end with the specification's result of arguments that agree. -/
theorem algebraic : Cert.algebraic_KernelIdeal_ReferenceIdeal := by
  intro m ρ m' ρ' _ hagree
  refine ⟨_, Cert.KernelIdeal.Region.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
